-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2 : Shape := ⟨3, ![8, 4096, 2]⟩
abbrev S8x4096x16 : Shape := ⟨3, ![8, 4096, 16]⟩
abbrev S2 : Shape := ⟨1, ![2]⟩
abbrev S64x64x2 : Shape := ⟨3, ![64, 64, 2]⟩
abbrev S_ : Shape := ⟨0, ![]⟩

class Facts : Prop where
  bcast_S_S8x4096x2 : S_.BroadcastsInDim S8x4096x2 (![] : Fin 0 → Fin S8x4096x2.rank)
  reducesTo_S8x4096x2_S_d0_1_2 : S8x4096x2.ReducesTo [0, 1, 2] S_
  h_S_ : 0 < S_.numel
  bcast_S_S8x4096x16 : S_.BroadcastsInDim S8x4096x16 (![] : Fin 0 → Fin S8x4096x16.rank)
  reducesTo_S8x4096x16_S_d0_1_2 : S8x4096x16.ReducesTo [0, 1, 2] S_
  bcast_S_S2 : S_.BroadcastsInDim S2 (![] : Fin 0 → Fin S2.rank)
  reducesTo_S2_S_d0 : S2.ReducesTo [0] S_
  bcast_S_S64x64x2 : S_.BroadcastsInDim S64x64x2 (![] : Fin 0 → Fin S64x64x2.rank)
  reducesTo_S64x64x2_S_d0_1_2 : S64x64x2.ReducesTo [0, 1, 2] S_

variable [Facts]

def fn_part1 {F : FTy → Type} [FloatOps F] (main_v13 : IVec S_ 1) (main_v16 : IVec S64x64x2 1) : IVec S_ 1 :=
  let main_c_5 : IVec S_ 1 := constantI S_ 1 1#1
  let main_v17 : IVec S_ 1 := (fun x v => Host.reduce IntOp.andi x v reducesTo_S64x64x2_S_d0_1_2 h_S_) main_v16 main_c_5
  let main_v18 : IVec S_ 1 := andi main_v13 main_v17
  main_v18

def fn {F : FTy → Type} [FloatOps F] (main_arg0 : FVec F S8x4096x2 .f32) (main_arg1 : FVec F S8x4096x16 .f32) (main_arg2 : FVec F S2 .f32) (main_arg3 : FVec F S64x64x2 .f32) : IVec S_ 1 :=
  let main_v0 : FVec F S8x4096x2 .f32 := Host.absf main_arg0
  let main_cst : FVec F S_ .f32 := constant S_ .f32 0x7F800000#32
  let main_v1 : FVec F S8x4096x2 .f32 := broadcastInDim S8x4096x2 ![] bcast_S_S8x4096x2 main_cst
  let main_v2 : IVec S8x4096x2 1 := cmpf .olt main_v0 main_v1
  let main_c : IVec S_ 1 := constantI S_ 1 1#1
  let main_v3 : IVec S_ 1 := (fun x v => Host.reduce IntOp.andi x v reducesTo_S8x4096x2_S_d0_1_2 h_S_) main_v2 main_c
  let main_v4 : FVec F S8x4096x16 .f32 := Host.absf main_arg1
  let main_cst_0 : FVec F S_ .f32 := constant S_ .f32 0x7F800000#32
  let main_v5 : FVec F S8x4096x16 .f32 := broadcastInDim S8x4096x16 ![] bcast_S_S8x4096x16 main_cst_0
  let main_v6 : IVec S8x4096x16 1 := cmpf .olt main_v4 main_v5
  let main_c_1 : IVec S_ 1 := constantI S_ 1 1#1
  let main_v7 : IVec S_ 1 := (fun x v => Host.reduce IntOp.andi x v reducesTo_S8x4096x16_S_d0_1_2 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_v14 : FVec F S64x64x2 .f32 := Host.absf main_arg3
  let main_cst_4 : FVec F S_ .f32 := constant S_ .f32 0x7F800000#32
  let main_v15 : FVec F S64x64x2 .f32 := broadcastInDim S64x64x2 ![] bcast_S_S64x64x2 main_cst_4
  let main_v16 : IVec S64x64x2 1 := cmpf .olt main_v14 main_v15
  fn_part1 (F := F) main_v13 main_v16
-- ==== Kernel.lean ====
abbrev S8x4096x2 : Shape := ⟨3, ![8, 4096, 2]⟩
abbrev S8x4096x16 : Shape := ⟨3, ![8, 4096, 16]⟩
abbrev S2 : Shape := ⟨1, ![2]⟩
abbrev S64x64x2 : Shape := ⟨3, ![64, 64, 2]⟩
abbrev S_ : Shape := ⟨0, ![]⟩
abbrev S4096x2 : Shape := ⟨2, ![4096, 2]⟩
abbrev S1x2 : Shape := ⟨2, ![1, 2]⟩
abbrev S1x1x2 : Shape := ⟨3, ![1, 1, 2]⟩
abbrev S8x2x4096 : Shape := ⟨3, ![8, 2, 4096]⟩
abbrev S128x2 : Shape := ⟨2, ![128, 2]⟩
abbrev S1x2x4096 : Shape := ⟨3, ![1, 2, 4096]⟩
abbrev S1x4096x16 : Shape := ⟨3, ![1, 4096, 16]⟩
abbrev S1x128x16 : Shape := ⟨3, ![1, 128, 16]⟩
abbrev S128x1 : Shape := ⟨2, ![128, 1]⟩
abbrev S2x4096 : Shape := ⟨2, ![2, 4096]⟩
abbrev S1x4096 : Shape := ⟨2, ![1, 4096]⟩
abbrev S128x4096 : Shape := ⟨2, ![128, 4096]⟩
abbrev S4096x16 : Shape := ⟨2, ![4096, 16]⟩
abbrev S128x16 : Shape := ⟨2, ![128, 16]⟩
abbrev S8x64x64x16 : Shape := ⟨4, ![8, 64, 64, 16]⟩
abbrev S1x64x64x2 : Shape := ⟨4, ![1, 64, 64, 2]⟩
abbrev S8x64x64x2 : Shape := ⟨4, ![8, 64, 64, 2]⟩

abbrev nBuf : Space → Nat
  | .hbm => 33
  | .vmem => 8
  | .smem => 0
  | _ => 0

abbrev bufTy : (tb : Table) → Fin (tcTables nBuf tb) → BufTy
  | .hbm, ⟨0, _⟩ => ⟨S8x4096x2, .f32⟩
  | .hbm, ⟨1, _⟩ => ⟨S8x4096x16, .f32⟩
  | .hbm, ⟨2, _⟩ => ⟨S2, .f32⟩
  | .hbm, ⟨3, _⟩ => ⟨S64x64x2, .f32⟩
  | .hbm, ⟨4, _⟩ => ⟨S_, .f32⟩
  | .hbm, ⟨5, _⟩ => ⟨S2, .f32⟩
  | .hbm, ⟨6, _⟩ => ⟨S2, .f32⟩
  | .hbm, ⟨7, _⟩ => ⟨S2, .f32⟩
  | .hbm, ⟨8, _⟩ => ⟨S2, .f32⟩
  | .hbm, ⟨9, _⟩ => ⟨S2, .i1⟩
  | .hbm, ⟨10, _⟩ => ⟨S2, .f32⟩
  | .hbm, ⟨11, _⟩ => ⟨S2, .f32⟩
  | .hbm, ⟨12, _⟩ => ⟨S2, .f32⟩
  | .hbm, ⟨13, _⟩ => ⟨S2, .f32⟩
  | .hbm, ⟨14, _⟩ => ⟨S2, .f32⟩
  | .hbm, ⟨15, _⟩ => ⟨S2, .f32⟩
  | .hbm, ⟨16, _⟩ => ⟨S2, .f32⟩
  | .hbm, ⟨17, _⟩ => ⟨S2, .f32⟩
  | .hbm, ⟨18, _⟩ => ⟨S_, .f32⟩
  | .hbm, ⟨19, _⟩ => ⟨S2, .f32⟩
  | .hbm, ⟨20, _⟩ => ⟨S2, .f32⟩
  | .hbm, ⟨21, _⟩ => ⟨S4096x2, .f32⟩
  | .hbm, ⟨22, _⟩ => ⟨S1x2, .f32⟩
  | .hbm, ⟨23, _⟩ => ⟨S4096x2, .f32⟩
  | .hbm, ⟨24, _⟩ => ⟨S4096x2, .f32⟩
  | .hbm, ⟨25, _⟩ => ⟨S1x1x2, .f32⟩
  | .hbm, ⟨26, _⟩ => ⟨S8x4096x2, .f32⟩
  | .hbm, ⟨27, _⟩ => ⟨S8x4096x2, .f32⟩
  | .hbm, ⟨28, _⟩ => ⟨S8x2x4096, .f32⟩
  | .hbm, ⟨29, _⟩ => ⟨S8x4096x16, .f32⟩
  | .hbm, ⟨30, _⟩ => ⟨S8x64x64x16, .f32⟩
  | .hbm, ⟨31, _⟩ => ⟨S1x64x64x2, .f32⟩
  | .hbm, ⟨32, _⟩ => ⟨S8x64x64x2, .f32⟩
  | .local _ .vmem, ⟨0, _⟩ => ⟨S128x2, .f32⟩
  | .local _ .vmem, ⟨1, _⟩ => ⟨S128x2, .f32⟩
  | .local _ .vmem, ⟨2, _⟩ => ⟨S1x2x4096, .f32⟩
  | .local _ .vmem, ⟨3, _⟩ => ⟨S1x2x4096, .f32⟩
  | .local _ .vmem, ⟨4, _⟩ => ⟨S1x4096x16, .f32⟩
  | .local _ .vmem, ⟨5, _⟩ => ⟨S1x4096x16, .f32⟩
  | .local _ .vmem, ⟨6, _⟩ => ⟨S1x128x16, .f32⟩
  | .local _ .vmem, ⟨7, _⟩ => ⟨S1x128x16, .f32⟩
  | _, _ => ⟨S8x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S2 : S_.BroadcastsInDim S2 (![] : Fin 0 → Fin S2.rank)
  shapeCasts_S64x64x2_S4096x2 : S64x64x2.ShapeCasts S4096x2
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  bcast_S2_S1x1x2_2 : S2.BroadcastsInDim S1x1x2 (![2] : Fin 1 → Fin S1x1x2.rank)
  bcast_S1x1x2_S8x4096x2_0_1_2 : S1x1x2.BroadcastsInDim S8x4096x2 (![0, 1, 2] : Fin 3 → Fin S8x4096x2.rank)
  transposes_S8x4096x2_S8x2x4096_0_2_1 : S8x4096x2.Transposes [0, 2, 1] S8x2x4096
  inb_S128x2_S128x2_0_0 : ∀ a, (![0, 0] : Fin 2 → Nat) a + S128x2.size a ≤ S128x2.size a
  h_S128x2 : 0 < S128x2.numel
  shapeCasts_S128x2_S128x2 : S128x2.ShapeCasts S128x2
  slices_S128x2_o0_0_S128x1 : S128x2.Slices ![0, 0] S128x1
  slices_S128x2_o0_1_S128x1 : S128x2.Slices ![0, 1] S128x1
  inb_S1x2x4096_S1x2x4096_0_0_0 : ∀ a, (![0, 0, 0] : Fin 3 → Nat) a + S1x2x4096.size a ≤ S1x2x4096.size a
  h_S1x2x4096 : 0 < S1x2x4096.numel
  shapeCasts_S1x2x4096_S2x4096 : S1x2x4096.ShapeCasts S2x4096
  slices_S2x4096_o0_0_S1x4096 : S2x4096.Slices ![0, 0] S1x4096
  slices_S2x4096_o1_0_S1x4096 : S2x4096.Slices ![1, 0] S1x4096
  broadcasts_S128x1_S128x4096 : S128x1.Broadcasts S128x4096
  broadcasts_S1x4096_S128x4096 : S1x4096.Broadcasts S128x4096
  bitsLt_bf16_f32 : FTy.bits .bf16 < FTy.bits .f32
  inb_S1x4096x16_S1x4096x16_0_0_0 : ∀ a, (![0, 0, 0] : Fin 3 → Nat) a + S1x4096x16.size a ≤ S1x4096x16.size a
  h_S1x4096x16 : 0 < S1x4096x16.numel
  shapeCasts_S1x4096x16_S4096x16 : S1x4096x16.ShapeCasts S4096x16
  inb_S1x128x16_S1x128x16_0_0_0 : ∀ a, (![0, 0, 0] : Fin 3 → Nat) a + S1x128x16.size a ≤ S1x128x16.size a
  h_S1x128x16 : 0 < S1x128x16.numel
  shapeCasts_S1x128x16_S128x16 : S1x128x16.ShapeCasts S128x16
  shapeCasts_S128x16_S1x128x16 : S128x16.ShapeCasts S1x128x16
  shapeCasts_S8x4096x16_S8x64x64x16 : S8x4096x16.ShapeCasts S8x64x64x16
  bcast_S64x64x2_S1x64x64x2_1_2_3 : S64x64x2.BroadcastsInDim S1x64x64x2 (![1, 2, 3] : Fin 3 → Fin S1x64x64x2.rank)
  bcast_S1x64x64x2_S8x64x64x2_0_1_2_3 : S1x64x64x2.BroadcastsInDim S8x64x64x2 (![0, 1, 2, 3] : Fin 4 → Fin S8x64x64x2.rank)
  dot_S128x4096_S4096x16_S128x16_1_0_0_1_n_n_wf : DotDims.WF S128x4096 S4096x16 S128x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2.size a ≤ S4096x2.size a
  hwx0_0 : ∀ i : grid0.Coords, EltTy.bits .f32 = 32 ∨ (Rect.block (s := S4096x2) S128x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x4096.size a ≤ S8x2x4096.size a
  hwx0_1 : ∀ i : grid0.Coords, EltTy.bits .f32 = 32 ∨ (Rect.block (s := S8x2x4096) S1x2x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x16.size a ≤ S8x4096x16.size a
  hwx0_2 : ∀ i : grid0.Coords, EltTy.bits .f32 = 32 ∨ (Rect.block (s := S8x4096x16) S1x4096x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x16.size a ≤ S8x4096x16.size a
  hwx0_3 : ∀ i : grid0.Coords, EltTy.bits .f32 = 32 ∨ (Rect.block (s := S8x4096x16) S1x128x16.size (cc0_transform_3 i) (hinb0_3 i)).WholeWords (EltTy.packing .f32)

variable [Facts₀]

def dot_S128x4096_S4096x16_S128x16_1_0_0_1_n_n : DotDims S128x4096 S4096x16 S128x16 where
  lhsContracting := [1]
  rhsContracting := [0]
  lhsNonContracting := [0]
  rhsNonContracting := [1]
  lhsBatch := []
  rhsBatch := []
  wf := dot_S128x4096_S4096x16_S128x16_1_0_0_1_n_n_wf

abbrev win0_0 : Pipeline.Window sig grid0 :=
  Pipeline.Window.ofSpec (Memref.whole main_v6) S128x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x2x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x4096x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x128x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x2 : Shape := ⟨3, ![8, 4096, 2]⟩
abbrev S8x4096x16 : Shape := ⟨3, ![8, 4096, 16]⟩
abbrev S2 : Shape := ⟨1, ![2]⟩
abbrev S64x64x2 : Shape := ⟨3, ![64, 64, 2]⟩
abbrev S_ : Shape := ⟨0, ![]⟩
abbrev S4096x2 : Shape := ⟨2, ![4096, 2]⟩
abbrev S1x4096x1x2 : Shape := ⟨4, ![1, 4096, 1, 2]⟩
abbrev S8x1x4096x2 : Shape := ⟨4, ![8, 1, 4096, 2]⟩
abbrev S8x4096x4096x2 : Shape := ⟨4, ![8, 4096, 4096, 2]⟩
abbrev S1x1x1x2 : Shape := ⟨4, ![1, 1, 1, 2]⟩
abbrev S8x4096x4096 : Shape := ⟨3, ![8, 4096, 4096]⟩
abbrev S8x64x64x16 : Shape := ⟨4, ![8, 64, 64, 16]⟩
abbrev S1x64x64x2 : Shape := ⟨4, ![1, 64, 64, 2]⟩
abbrev S8x64x64x2 : Shape := ⟨4, ![8, 64, 64, 2]⟩

abbrev nBuf : Space → Nat
  | .hbm => 41
  | .vmem => 0
  | .smem => 0
  | _ => 0

abbrev bufTy : (tb : Table) → Fin (tcTables nBuf tb) → BufTy
  | .hbm, ⟨0, _⟩ => ⟨S8x4096x2, .f32⟩
  | .hbm, ⟨1, _⟩ => ⟨S8x4096x16, .f32⟩
  | .hbm, ⟨2, _⟩ => ⟨S2, .f32⟩
  | .hbm, ⟨3, _⟩ => ⟨S64x64x2, .f32⟩
  | .hbm, ⟨4, _⟩ => ⟨S_, .f32⟩
  | .hbm, ⟨5, _⟩ => ⟨S2, .f32⟩
  | .hbm, ⟨6, _⟩ => ⟨S2, .f32⟩
  | .hbm, ⟨7, _⟩ => ⟨S2, .f32⟩
  | .hbm, ⟨8, _⟩ => ⟨S2, .f32⟩
  | .hbm, ⟨9, _⟩ => ⟨S2, .i1⟩
  | .hbm, ⟨10, _⟩ => ⟨S2, .f32⟩
  | .hbm, ⟨11, _⟩ => ⟨S2, .f32⟩
  | .hbm, ⟨12, _⟩ => ⟨S2, .f32⟩
  | .hbm, ⟨13, _⟩ => ⟨S2, .f32⟩
  | .hbm, ⟨14, _⟩ => ⟨S2, .f32⟩
  | .hbm, ⟨15, _⟩ => ⟨S2, .f32⟩
  | .hbm, ⟨16, _⟩ => ⟨S2, .f32⟩
  | .hbm, ⟨17, _⟩ => ⟨S2, .f32⟩
  | .hbm, ⟨18, _⟩ => ⟨S_, .f32⟩
  | .hbm, ⟨19, _⟩ => ⟨S2, .f32⟩
  | .hbm, ⟨20, _⟩ => ⟨S2, .f32⟩
  | .hbm, ⟨21, _⟩ => ⟨S4096x2, .f32⟩
  | .hbm, ⟨22, _⟩ => ⟨S1x4096x1x2, .f32⟩
  | .hbm, ⟨23, _⟩ => ⟨S8x1x4096x2, .f32⟩
  | .hbm, ⟨24, _⟩ => ⟨S8x4096x4096x2, .f32⟩
  | .hbm, ⟨25, _⟩ => ⟨S8x4096x4096x2, .f32⟩
  | .hbm, ⟨26, _⟩ => ⟨S8x4096x4096x2, .f32⟩
  | .hbm, ⟨27, _⟩ => ⟨S1x1x1x2, .f32⟩
  | .hbm, ⟨28, _⟩ => ⟨S8x4096x4096x2, .f32⟩
  | .hbm, ⟨29, _⟩ => ⟨S8x4096x4096x2, .f32⟩
  | .hbm, ⟨30, _⟩ => ⟨S8x4096x4096x2, .f32⟩
  | .hbm, ⟨31, _⟩ => ⟨S_, .f32⟩
  | .hbm, ⟨32, _⟩ => ⟨S8x4096x4096, .f32⟩
  | .hbm, ⟨33, _⟩ => ⟨S_, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S8x4096x16, .f32⟩
  | .hbm, ⟨38, _⟩ => ⟨S8x64x64x16, .f32⟩
  | .hbm, ⟨39, _⟩ => ⟨S1x64x64x2, .f32⟩
  | .hbm, ⟨40, _⟩ => ⟨S8x64x64x2, .f32⟩
  | _, _ => ⟨S8x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩

abbrev nD : Nat := 1
abbrev τ : Topo := Topo.v7x

variable {F : FTy → Type} [FloatOps F]

class Facts₀ : Prop where
  bcast_S_S2 : S_.BroadcastsInDim S2 (![] : Fin 0 → Fin S2.rank)
  shapeCasts_S64x64x2_S4096x2 : S64x64x2.ShapeCasts S4096x2
  bcast_S4096x2_S1x4096x1x2_1_3 : S4096x2.BroadcastsInDim S1x4096x1x2 (![1, 3] : Fin 2 → Fin S1x4096x1x2.rank)
  bcast_S8x4096x2_S8x1x4096x2_0_2_3 : S8x4096x2.BroadcastsInDim S8x1x4096x2 (![0, 2, 3] : Fin 3 → Fin S8x1x4096x2.rank)
  bcast_S1x4096x1x2_S8x4096x4096x2_0_1_2_3 : S1x4096x1x2.BroadcastsInDim S8x4096x4096x2 (![0, 1, 2, 3] : Fin 4 → Fin S8x4096x4096x2.rank)
  bcast_S8x1x4096x2_S8x4096x4096x2_0_1_2_3 : S8x1x4096x2.BroadcastsInDim S8x4096x4096x2 (![0, 1, 2, 3] : Fin 4 → Fin S8x4096x4096x2.rank)
  bcast_S2_S1x1x1x2_3 : S2.BroadcastsInDim S1x1x1x2 (![3] : Fin 1 → Fin S1x1x1x2.rank)
  bcast_S1x1x1x2_S8x4096x4096x2_0_1_2_3 : S1x1x1x2.BroadcastsInDim S8x4096x4096x2 (![0, 1, 2, 3] : Fin 4 → Fin S8x4096x4096x2.rank)
  reducesTo_S8x4096x4096x2_S8x4096x4096_d3 : S8x4096x4096x2.ReducesTo [3] S8x4096x4096
  h_S_ : 0 < S_.numel
  bcast_S_S8x4096x4096 : S_.BroadcastsInDim S8x4096x4096 (![] : Fin 0 → Fin S8x4096x4096.rank)
  shapeCasts_S8x4096x16_S8x64x64x16 : S8x4096x16.ShapeCasts S8x64x64x16
  bcast_S64x64x2_S1x64x64x2_1_2_3 : S64x64x2.BroadcastsInDim S1x64x64x2 (![1, 2, 3] : Fin 3 → Fin S1x64x64x2.rank)
  bcast_S1x64x64x2_S8x64x64x2_0_1_2_3 : S1x64x64x2.BroadcastsInDim S8x64x64x2 (![0, 1, 2, 3] : Fin 4 → Fin S8x64x64x2.rank)
  dot_S8x4096x4096_S8x4096x16_S8x4096x16_2_1_1_2_0_0_wf : DotDims.WF S8x4096x4096 S8x4096x16 S8x4096x16 [2] [1] [1] [2] [0] [0]

variable [Facts₀]

def dot_S8x4096x4096_S8x4096x16_S8x4096x16_2_1_1_2_0_0 : DotDims S8x4096x4096 S8x4096x16 S8x4096x16 where
  lhsContracting := [2]
  rhsContracting := [1]
  lhsNonContracting := [1]
  rhsNonContracting := [2]
  lhsBatch := [0]
  rhsBatch := [0]
  wf := dot_S8x4096x4096_S8x4096x16_S8x4096x16_2_1_1_2_0_0_wf

class Facts : Prop extends Facts₀ where

variable [Facts]
-- ==== Proof.KernelPayload.lean ====
/-
  The kernel body's arithmetic, read at an index.

  At a grid point the body holds a block of 128 scaled grid rows `gs` (128 × 2), the batch's scaled points with the
  coordinate axis first `xt` (1 × 2 × 4096) and the batch's features `zb` (1 × 4096 × 16). It splits `gs` into its two
  columns and `xt` into its two rows, broadcasts a column along the points and a row along the grid rows, subtracts,
  squares, adds the two squares, multiplies by `-½`, exponentiates — a 128 × 4096 tile of weights — and multiplies that
  tile with the 4096 × 16 features on the matrix unit into a zero accumulator (the changes of format to bf16 are the
  identity on extended reals). So the stored 1 × 128 × 16 block is, at `(0, p, q)`, the sum over the points `k` of
  `exp (-½ ((gs[p,0] - xt[0,0,k])² + (gs[p,1] - xt[0,1,k])²)) · zb[0,k,q]`.
-/
import proofs.«101110_j21105469292680_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.SetConv.Ker

open Cert.KernelIdeal Cert.KernelIdeal.Gen
open Idealize.ShloMosaic Idealize.ShloMosaic.ValueIdx
open scoped BigOperators

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The matrix product: rows of the weight tile against columns of the features -/

theorem lhs_mm_0 (i : S128x16.Idx) (q : dot_S128x4096_S4096x16_S128x16_1_0_0_1_n_n.contr.Idx) :
    (dot_S128x4096_S4096x16_S128x16_1_0_0_1_n_n.lhsIdx i q 0).val = (i 0).val := by
  unfold DotDims.lhsIdx
  rw [dif_neg (show ¬(0 : Fin S128x4096.rank) ∈ dot_S128x4096_S4096x16_S128x16_1_0_0_1_n_n.lhsBatch by decide), dif_pos (show (0 : Fin S128x4096.rank) ∈ dot_S128x4096_S4096x16_S128x16_1_0_0_1_n_n.lhsNonContracting by decide)]
  rfl
theorem lhs_mm_1 (i : S128x16.Idx) (q : dot_S128x4096_S4096x16_S128x16_1_0_0_1_n_n.contr.Idx) :
    (dot_S128x4096_S4096x16_S128x16_1_0_0_1_n_n.lhsIdx i q 1).val = (q ⟨0, by decide⟩).val :=
  dot_S128x4096_S4096x16_S128x16_1_0_0_1_n_n.lhsIdx_val_of_single rfl i q
theorem rhs_mm_0 (i : S128x16.Idx) (q : dot_S128x4096_S4096x16_S128x16_1_0_0_1_n_n.contr.Idx) :
    (dot_S128x4096_S4096x16_S128x16_1_0_0_1_n_n.rhsIdx i q 0).val = (q ⟨0, by decide⟩).val :=
  dot_S128x4096_S4096x16_S128x16_1_0_0_1_n_n.rhsIdx_val_of_single rfl i q
theorem rhs_mm_1 (i : S128x16.Idx) (q : dot_S128x4096_S4096x16_S128x16_1_0_0_1_n_n.contr.Idx) :
    (dot_S128x4096_S4096x16_S128x16_1_0_0_1_n_n.rhsIdx i q 1).val = (i 1).val := by
  unfold DotDims.rhsIdx
  rw [dif_neg (show ¬(1 : Fin S4096x16.rank) ∈ dot_S128x4096_S4096x16_S128x16_1_0_0_1_n_n.rhsBatch by decide), dif_pos (show (1 : Fin S4096x16.rank) ∈ dot_S128x4096_S4096x16_S128x16_1_0_0_1_n_n.rhsNonContracting by decide)]
  rfl

/-- The matrix unit's product into a zero accumulator is, at `(p, q)`, the sum over the 4096 points. -/
theorem mm_apply (lhs : FVec Ideal S128x4096 .bf16) (rhs : FVec Ideal S4096x16 .bf16) (p : Fin 128) (q : Fin 16) :
    matmul dot_S128x4096_S4096x16_S128x16_1_0_0_1_n_n none lhs rhs (constant S128x16 .f32 0x00000000#32) (ix2 p q)
      = ∑ k : Fin 4096, lhs (ix2 p k) * rhs (ix2 k q) := by
  simp only [matmul]
  rw [Ideal.matmul_constant_zero_apply, ← Equiv.sum_comp (contrEquiv1 dot_S128x4096_S4096x16_S128x16_1_0_0_1_n_n 4096 rfl rfl).symm]
  refine Finset.sum_congr rfl fun k _ => ?_
  have hk := contrEquiv1_symm_val dot_S128x4096_S4096x16_S128x16_1_0_0_1_n_n 4096 rfl rfl k
  have el : dot_S128x4096_S4096x16_S128x16_1_0_0_1_n_n.lhsIdx (ix2 p q) ((contrEquiv1 dot_S128x4096_S4096x16_S128x16_1_0_0_1_n_n 4096 rfl rfl).symm k) = ix2 p k := funext fun a => Fin.ext (by
    match a with
    | ⟨0, _⟩ => exact lhs_mm_0 _ _
    | ⟨1, _⟩ => exact (lhs_mm_1 _ _).trans hk)
  have er : dot_S128x4096_S4096x16_S128x16_1_0_0_1_n_n.rhsIdx (ix2 p q) ((contrEquiv1 dot_S128x4096_S4096x16_S128x16_1_0_0_1_n_n 4096 rfl rfl).symm k) = ix2 k q := funext fun a => Fin.ext (by
    match a with
    | ⟨0, _⟩ => exact (rhs_mm_0 _ _).trans hk
    | ⟨1, _⟩ => exact rhs_mm_1 _ _)
  rw [el, er]

/-! ## The payload -/

/-- Column `d` of the grid block, broadcast along the points, reads the block at `(p, d)`. -/
theorem col_apply (x0 : Vec Ideal S128x2 .f32) (o : Nat) (d : Fin 2) (hd : d.val = o)
    (h1 : S128x2.ShapeCasts S128x2) (h2 : S128x2.Slices ![0, o] S128x1) (h3 : S128x1.Broadcasts S128x4096)
    (p : Fin 128) (k : Fin 4096) :
    broadcastTo S128x4096 (extractStridedSlice S128x1 ![0, o] (shapeCast S128x2 x0 h1) h2) h3 (ix2 p k) = x0 (ix2 p d) := by
  rw [broadcastTo_a1_ab_apply, slice2_axis1_apply o _ h2 p (0 : Fin 1) d (by rw [hd]; rfl), shapeCast_self]

/-- Row `d` of the transposed points, broadcast along the grid rows, reads the block at `(0, d, k)`. -/
theorem row_apply (x1 : Vec Ideal S1x2x4096 .f32) (o : Nat) (d : Fin 2) (hd : d.val = o)
    (h1 : S1x2x4096.ShapeCasts S2x4096) (h2 : S2x4096.Slices ![o, 0] S1x4096) (h3 : S1x4096.Broadcasts S128x4096)
    (p : Fin 128) (k : Fin 4096) :
    broadcastTo S128x4096 (extractStridedSlice S1x4096 ![o, 0] (shapeCast S2x4096 x1 h1) h2) h3 (ix2 p k)
      = x1 (ix3 (0 : Fin 1) d k) := by
  rw [broadcastTo_1b_ab_apply, slice2_axis0_apply o _ h2 (0 : Fin 1) k d (by rw [hd]; rfl), shapeCast_1ab_ab_apply]

/-- The stored block at `(u, p, q)`. -/
theorem pay_apply (x0 : Vec Ideal S128x2 .f32) (x1 : Vec Ideal S1x2x4096 .f32) (x2 : Vec Ideal S1x4096x16 .f32)
    (u : Fin 1) (p : Fin 128) (q : Fin 16) :
    k0_pay1 (F := Ideal) x0 x1 x2 (ix3 u p q)
      = ∑ k : Fin 4096, Ideal.exp (Ideal.ofBits .f32 0xBF000000#32 *
          ((x0 (ix2 p (0 : Fin 2)) - x1 (ix3 (0 : Fin 1) (0 : Fin 2) k)) * (x0 (ix2 p (0 : Fin 2)) - x1 (ix3 (0 : Fin 1) (0 : Fin 2) k))
            + (x0 (ix2 p (1 : Fin 2)) - x1 (ix3 (0 : Fin 1) (1 : Fin 2) k)) * (x0 (ix2 p (1 : Fin 2)) - x1 (ix3 (0 : Fin 1) (1 : Fin 2) k))))
        * x2 (ix3 (0 : Fin 1) k q) := by
  unfold k0_pay1
  rw [shapeCast_ab_1ab_apply, mm_apply]
  refine Finset.sum_congr rfl fun k _ => ?_
  rw [truncf_apply, truncf_apply, shapeCast_1ab_ab_apply]
  simp only [exp, mulf_apply, addf_apply, subf_apply, broadcast_apply]
  rw [col_apply x0 0 (0 : Fin 2) rfl, col_apply x0 1 (1 : Fin 2) rfl, row_apply x1 0 (0 : Fin 2) rfl, row_apply x1 1 (1 : Fin 2) rfl]
  rfl

end Cert.SetConv.Ker

end
-- ==== Proof.SquareLaw.lean ====
/-
  Dividing before or after a subtraction, under a square.

  The kernel scales the grid coordinate and the point coordinate by the lengthscale separately and then subtracts,
  `g / l - x / l`; the reference subtracts first and scales the difference, `(g - x) / l`. On the extended reals the
  quotient by `l` is the product with `l⁻¹` when `l ≠ 0` — and `l⁻¹` is then a real number (zero at the infinities) —,
  so for real `g` and `x` the two differences are the same real. At `l = 0` every quotient is an infinity, so both
  differences are infinite, and the two programs use the difference only through its square, which is `⊤` on both sides.
  Hence the squares agree for every extended-real `l`, with no hypothesis on the lengthscale.
-/
import Idealize.ShloMosaic.PureOps.Ideal

namespace Cert.SetConv

open Idealize.ShloMosaic

/-- The inverse of a nonzero extended real is a real number. -/
theorem inv_eq_coe (y : EReal) : ∃ r : ℝ, y⁻¹ = (r : EReal) := by
  induction y using EReal.rec with
  | bot => exact ⟨0, by simp⟩
  | top => exact ⟨0, by simp⟩
  | coe r => exact ⟨r⁻¹, (EReal.coe_inv r).symm⟩

/-- A value that is one of the two infinities squares to `⊤`. -/
theorem sq_of_top_or_bot {u : EReal} (h : u = ⊤ ∨ u = ⊥) : u * u = ⊤ := by
  rcases h with rfl | rfl
  · exact EReal.top_mul_top
  · exact EReal.bot_mul_bot

/-- The difference of two infinities is an infinity. -/
theorem sub_top_or_bot {u v : EReal} (hu : u = ⊤ ∨ u = ⊥) (hv : v = ⊤ ∨ v = ⊥) : u - v = ⊤ ∨ u - v = ⊥ := by
  rcases hu with rfl | rfl <;> rcases hv with rfl | rfl <;> simp [sub_eq_add_neg]

/-- `(g / l - x / l)² = ((g - x) / l)²` for real `g`, `x` and any extended-real `l`. -/
theorem sq_div_sub (a b : ℝ) (y : EReal) :
    (Ideal.div (a : EReal) y - Ideal.div (b : EReal) y) * (Ideal.div (a : EReal) y - Ideal.div (b : EReal) y)
      = Ideal.div ((a : EReal) - (b : EReal)) y * Ideal.div ((a : EReal) - (b : EReal)) y := by
  unfold Ideal.div
  by_cases hy : y = 0
  · simp only [if_pos hy]
    have ha : (if (0 : EReal) < (a : EReal) then (⊤ : EReal) else ⊥) = ⊤ ∨ (if (0 : EReal) < (a : EReal) then (⊤ : EReal) else ⊥) = ⊥ := by
      split_ifs <;> simp
    have hb : (if (0 : EReal) < (b : EReal) then (⊤ : EReal) else ⊥) = ⊤ ∨ (if (0 : EReal) < (b : EReal) then (⊤ : EReal) else ⊥) = ⊥ := by
      split_ifs <;> simp
    have hab : (if (0 : EReal) < (a : EReal) - (b : EReal) then (⊤ : EReal) else ⊥) = ⊤ ∨ (if (0 : EReal) < (a : EReal) - (b : EReal) then (⊤ : EReal) else ⊥) = ⊥ := by
      split_ifs <;> simp
    rw [sq_of_top_or_bot (sub_top_or_bot ha hb), sq_of_top_or_bot hab]
  · simp only [if_neg hy]
    obtain ⟨r, hr⟩ := inv_eq_coe y
    rw [hr]
    have e : (a : EReal) * (r : EReal) - (b : EReal) * (r : EReal) = ((a : EReal) - (b : EReal)) * (r : EReal) := by
      rw [← EReal.coe_mul, ← EReal.coe_mul, ← EReal.coe_sub, ← EReal.coe_sub, ← EReal.coe_mul]
      congr 1
      ring
    rw [e]

end Cert.SetConv
-- ==== Proof.Spec.lean ====
/-
  The set-convolution onto a grid, as functions of whole arrays.

  For a batch `b`, a grid point `r` (a row of the flattened 4096 × 2 grid) and an input point `k`, the weight is
  `exp (-½ · Σ_d ((g[r,d] - x[b,k,d]) / l[d])²)`, and the output at `(b, r, e)` is `Σ_k weight(b,r,k) · z[b,k,e]`.
  The reference computes the weight in that arrangement (`refWeight`: subtract, divide, square, sum over the two
  coordinates from a zero initial value). The kernel is handed the grid and the points already divided by the
  lengthscale, the points also transposed, and subtracts those (`scaledWeight` over the scaled arrays; `kerWeight` is the
  same thing with the scaling written out). `kerWeight_eq_refWeight` joins the two: coordinate by coordinate the
  squares agree (`sq_div_sub`) because the grid and the points are real numbers.
-/
import Idealize.ShloMosaic.PureOps.Ideal
import Idealize.ShloMosaic.PureOps.Ideal.Laws
import Idealize.ShloMosaic.Lib.ValueIdx
import proofs.«101110_j21105469292680_1_alg».proof.Proof.SquareLaw

noncomputable section

namespace Cert.SetConv

open Idealize.ShloMosaic Idealize.ShloMosaic.ValueIdx
open scoped BigOperators

/-- The flattened grid: 4096 points of 2 coordinates. -/
abbrev SGrid : Shape := ⟨2, ![4096, 2]⟩
/-- The input points: 8 batches of 4096 points of 2 coordinates. -/
abbrev SPts : Shape := ⟨3, ![8, 4096, 2]⟩
/-- The input points with the coordinate axis before the point axis. -/
abbrev SPtsT : Shape := ⟨3, ![8, 2, 4096]⟩
/-- The features, and the output before it is folded to 64 × 64. -/
abbrev SFeat : Shape := ⟨3, ![8, 4096, 16]⟩
/-- The lengthscale, one per coordinate. -/
abbrev SLen : Shape := ⟨1, ![2]⟩

/-- The weight as the reference arranges it. -/
def refWeight (g : SGrid.Idx → EReal) (x : SPts.Idx → EReal) (l : SLen.Idx → EReal) (b : Fin 8) (r k : Fin 4096) : EReal :=
  Ideal.exp (Ideal.ofBits .f32 0xBF000000#32 * (Ideal.ofBits .f32 0x00000000#32 +
    ∑ d : Fin 2, Ideal.div (g (ix2 r d) - x (ix3 b k d)) (l (ix1 d)) * Ideal.div (g (ix2 r d) - x (ix3 b k d)) (l (ix1 d))))

/-- The weight over arrays that are already divided by the lengthscale (the points transposed). -/
def scaledWeight (gs : SGrid.Idx → EReal) (xt : SPtsT.Idx → EReal) (b : Fin 8) (r k : Fin 4096) : EReal :=
  Ideal.exp (Ideal.ofBits .f32 0xBF000000#32 *
    ((gs (ix2 r (0 : Fin 2)) - xt (ix3 b (0 : Fin 2) k)) * (gs (ix2 r (0 : Fin 2)) - xt (ix3 b (0 : Fin 2) k))
      + (gs (ix2 r (1 : Fin 2)) - xt (ix3 b (1 : Fin 2) k)) * (gs (ix2 r (1 : Fin 2)) - xt (ix3 b (1 : Fin 2) k))))

/-- The kernel's output array over the scaled arrays: the weighted sum of the features over the points. -/
def scaledOut (gs : SGrid.Idx → EReal) (xt : SPtsT.Idx → EReal) (z : SFeat.Idx → EReal) : SFeat.Idx → EReal :=
  fun i => ∑ k : Fin 4096, scaledWeight gs xt (i 0) (i 1) k * z (ix3 (i 0) k (i 2))

/-- The reference's output array before it is folded to 64 × 64. -/
def refOut (g : SGrid.Idx → EReal) (x : SPts.Idx → EReal) (l : SLen.Idx → EReal) (z : SFeat.Idx → EReal) : SFeat.Idx → EReal :=
  fun i => ∑ k : Fin 4096, refWeight g x l (i 0) (i 1) k * z (ix3 (i 0) k (i 2))

/-- With the scaled arrays the quotients of a real grid and real points, the kernel's weight is the reference's. -/
theorem scaledWeight_eq_refWeight (g : SGrid.Idx → EReal) (x : SPts.Idx → EReal) (l : SLen.Idx → EReal)
    (gs : SGrid.Idx → EReal) (xt : SPtsT.Idx → EReal)
    (hg : ∀ i, ∃ a : ℝ, g i = (a : EReal)) (hx : ∀ i, ∃ a : ℝ, x i = (a : EReal))
    (hgs : ∀ (r : Fin 4096) (d : Fin 2), gs (ix2 r d) = Ideal.div (g (ix2 r d)) (l (ix1 d)))
    (hxt : ∀ (b : Fin 8) (d : Fin 2) (k : Fin 4096), xt (ix3 b d k) = Ideal.div (x (ix3 b k d)) (l (ix1 d)))
    (b : Fin 8) (r k : Fin 4096) : scaledWeight gs xt b r k = refWeight g x l b r k := by
  unfold scaledWeight refWeight
  rw [Fin.sum_univ_two, Ideal.ofBits_zero_f32, zero_add, hgs, hgs, hxt, hxt]
  obtain ⟨g0, hg0⟩ := hg (ix2 r (0 : Fin 2))
  obtain ⟨g1, hg1⟩ := hg (ix2 r (1 : Fin 2))
  obtain ⟨x0, hx0⟩ := hx (ix3 b k (0 : Fin 2))
  obtain ⟨x1, hx1⟩ := hx (ix3 b k (1 : Fin 2))
  rw [hg0, hg1, hx0, hx1, sq_div_sub, sq_div_sub]

/-- Hence the two output arrays are one function. -/
theorem scaledOut_eq_refOut (g : SGrid.Idx → EReal) (x : SPts.Idx → EReal) (l : SLen.Idx → EReal) (z : SFeat.Idx → EReal)
    (gs : SGrid.Idx → EReal) (xt : SPtsT.Idx → EReal)
    (hg : ∀ i, ∃ a : ℝ, g i = (a : EReal)) (hx : ∀ i, ∃ a : ℝ, x i = (a : EReal))
    (hgs : ∀ (r : Fin 4096) (d : Fin 2), gs (ix2 r d) = Ideal.div (g (ix2 r d)) (l (ix1 d)))
    (hxt : ∀ (b : Fin 8) (d : Fin 2) (k : Fin 4096), xt (ix3 b d k) = Ideal.div (x (ix3 b k d)) (l (ix1 d))) :
    scaledOut gs xt z = refOut g x l z := by
  funext i
  unfold scaledOut refOut
  exact Finset.sum_congr rfl fun k _ =>
    congrArg (fun w => w * z (ix3 (i 0) k (i 2))) (scaledWeight_eq_refWeight g x l gs xt hg hx hgs hxt (i 0) (i 1) k)

end Cert.SetConv

end
-- ==== Proof.KernelBlocks.lean ====
/-
  The grid of the pallas_call, decided once.

  Point `(b, mi)` of the 8 × 32 grid stages rows `128·mi …` of the scaled grid (block index `(mi, 0)`), batch `b` of the
  scaled transposed points and of the features (block index `(b, 0, 0)`), and writes back block `(b, mi, 0)` of the
  output. These relations between the printed index maps are decided over the 256 points, and so is that every
  (batch, row block) is some point's. Beside them: a block of the body's value is the block of `scaledOut` whenever the
  three loaded blocks are the arrays read where `scaledOut` reads them.
-/
import proofs.«101110_j21105469292680_1_alg».proof.Proof.Gen.KernelIdeal.Frame
import proofs.«101110_j21105469292680_1_alg».proof.Proof.KernelPayload
import proofs.«101110_j21105469292680_1_alg».proof.Proof.Spec

set_option maxRecDepth 16384

noncomputable section

namespace Cert.SetConv.KerValue

open Cert.KernelIdeal Cert.KernelIdeal.Gen
open Idealize.ShloMosaic Idealize.ShloMosaic.TcCoe Idealize.ShloMosaic.ValueIdx Idealize.SL.Sem
open Cert.SetConv Cert.SetConv.Ker
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-- A block of the body's value is the block of `scaledOut`, whenever the three loaded blocks are the arrays read
    where `scaledOut` reads them. -/
theorem block_eq (GS : SGrid.Idx → EReal) (XT : SPtsT.Idx → EReal) (Z : SFeat.Idx → EReal)
    (x0 : Vec Ideal S128x2 .f32) (x1 : Vec Ideal S1x2x4096 .f32) (x2 : Vec Ideal S1x4096x16 .f32)
    (u : Fin 1) (p : Fin 128) (q : Fin 16) (i : SFeat.Idx)
    (h0 : ∀ d : Fin 2, x0 (ix2 p d) = GS (ix2 (i 1) d))
    (h1 : ∀ (d : Fin 2) (k : Fin 4096), x1 (ix3 (0 : Fin 1) d k) = XT (ix3 (i 0) d k))
    (h2 : ∀ k : Fin 4096, x2 (ix3 (0 : Fin 1) k q) = Z (ix3 (i 0) k (i 2))) :
    k0_pay1 (F := Ideal) x0 x1 x2 (ix3 u p q) = scaledOut GS XT Z i := by
  rw [pay_apply]
  unfold scaledOut scaledWeight
  refine Finset.sum_congr rfl fun k _ => ?_
  rw [h0, h0, h1, h1, h2]

/-- The printed index maps, decided over the 256 grid points: the grid block follows the output's row block, the points
    and the features follow its batch, every other block index is zero. -/
theorem idx_facts : ∀ t : Fin cfg0.N,
    win0_0.index t (0 : Fin 2) = win0_3.index t (1 : Fin 3) ∧ win0_0.index t (1 : Fin 2) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (2 : Fin 3) = 0 ∧ win0_3.index t (0 : Fin 3) ≤ 7 ∧ win0_3.index t (1 : Fin 3) ≤ 31 :=
  (by decide +kernel : ∀ t : Fin grid0.N, _)

/-- Every (batch, row block) is some point's. -/
theorem idx_onto : ∀ (q0 : Fin 8) (q1 : Fin 32), ∃ t : Fin cfg0.N, win0_3.index t = ![q0.val, q1.val, 0] :=
  (by decide +kernel : ∀ (q0 : Fin 8) (q1 : Fin 32), ∃ t : Fin grid0.N, win0_3.index t = ![q0.val, q1.val, 0])

end Cert.SetConv.KerValue

end
-- ==== Proof.KernelValue.lean ====
/-
  The kernel's output array after the run, and the program's two results.

  The pallas_call runs on an 8 × 32 grid: point `(b, mi)` is handed rows `128·mi … 128·mi + 127` of the scaled grid, the
  whole of batch `b`'s scaled transposed points and of batch `b`'s features, and writes back rows `128·mi …` of batch `b`
  of the output. What it writes back is the block of ONE whole-array function, `scaledOut` of the three arrays as the
  region finds them: the body's value at `(0, p, q)` (`pay_apply`) reads its blocks exactly where `scaledOut` at
  `(b, 128·mi + p, q)` reads the arrays. The 256 output blocks tile the 8 × 4096 × 16 array, so after the run the array IS
  `scaledOut`. The host lines before the region make the scaled arrays (the flattened grid and the points, each divided by
  the lengthscale broadcast along it, the points then transposed); the lines after it fold the output to 8 × 64 × 64 × 16
  and broadcast the grid over the batches.
-/
import proofs.«101110_j21105469292680_1_alg».proof.Proof.Gen.KernelIdeal.Frame
import proofs.«101110_j21105469292680_1_alg».proof.Proof.KernelBlocks
import proofs.«101110_j21105469292680_1_alg».proof.Proof.Spec
import Idealize.ShloMosaic.Lib.Pipeline.Value
import Idealize.ShloMosaic.Lib.StableHlo.Run

set_option maxRecDepth 16384

noncomputable section

namespace Cert.SetConv.KerValue

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.SetConv Cert.SetConv.Ker
open scoped BigOperators

variable (m : (ℓ : Loc nD τ sig) → Buf (Elt Ideal) ℓ) (ρ : Dev nD → PrngReg)

/-- WHAT POINT `t` WRITES BACK is block `t` of `scaledOut` of the arrays as the region finds them. -/
theorem flushed_eq (c : Dev nD) (t : Fin cfg0.N) :
    (dats m 0 c).flushed 3 t = ((cfg0.win 3).blk t).view.read (Elt Ideal)
      (scaledOut (V m c main_v6) (V m c main_v10) (V m c main_arg1)) := by
  show (cfg0.win 3).cut (grid0.coords t) ((dats m 0 c).after 3 t) = _
  rw [after0_3]
  unfold out0_3
  rw [View.canon_unit_zero hz3]
  simp only [View.ld_unit_zero (S := S128x2) hz2, View.ld_unit_zero (S := S1x2x4096) hz3, View.ld_unit_zero (S := S1x4096x16) hz3]
  obtain ⟨e0, e1, e2, e3, e4, e5, e6, e7, e8, e9, e10⟩ := idx_facts t
  funext j
  obtain ⟨u, p, q, rfl⟩ : ∃ (u : Fin 1) (p : Fin 128) (q : Fin 16), j = ix3 u p q := ⟨j 0, j 1, j 2, eq_ix3 j⟩
  show k0_pay1 (F := Ideal) (iblk m c 0 t) (iblk m c 1 t) (iblk m c 2 t) (ix3 u p q)
    = scaledOut (V m c main_v6) (V m c main_v10) (V m c main_arg1) (((cfg0.win 3).blk t).view.emb (ix3 u p q))
  refine block_eq _ _ _ (iblk m c 0 t) (iblk m c 1 t) (iblk m c 2 t) u p q _ ?_ ?_ ?_
  · intro d
    show V m c main_v6 (((cfg0.win 0).blk t).view.emb (ix2 p d)) = V m c main_v6 _
    refine congrArg (V m c main_v6) (funext fun a => Fin.ext ?_)
    match a with
    | ⟨0, _⟩ => show win0_0.index t (0 : Fin 2) * 128 + 1 * p.val = win0_3.index t (1 : Fin 3) * 128 + 1 * p.val; omega
    | ⟨1, _⟩ => show win0_0.index t (1 : Fin 2) * 2 + 1 * d.val = d.val; omega
  · intro d k
    show V m c main_v10 (((cfg0.win 1).blk t).view.emb (ix3 (0 : Fin 1) d k)) = V m c main_v10 _
    refine congrArg (V m c main_v10) (funext fun a => Fin.ext ?_)
    have hu : u.val < 1 := u.isLt
    match a with
    | ⟨0, _⟩ => show win0_1.index t (0 : Fin 3) * 1 + 1 * 0 = win0_3.index t (0 : Fin 3) * 1 + 1 * u.val; omega
    | ⟨1, _⟩ => show win0_1.index t (1 : Fin 3) * 2 + 1 * d.val = d.val; omega
    | ⟨2, _⟩ => show win0_1.index t (2 : Fin 3) * 4096 + 1 * k.val = k.val; omega
  · intro k
    show V m c main_arg1 (((cfg0.win 2).blk t).view.emb (ix3 (0 : Fin 1) k q)) = V m c main_arg1 _
    refine congrArg (V m c main_arg1) (funext fun a => Fin.ext ?_)
    have hu : u.val < 1 := u.isLt
    match a with
    | ⟨0, _⟩ => show win0_2.index t (0 : Fin 3) * 1 + 1 * 0 = win0_3.index t (0 : Fin 3) * 1 + 1 * u.val; omega
    | ⟨1, _⟩ => show win0_2.index t (1 : Fin 3) * 4096 + 1 * k.val = k.val; omega
    | ⟨2, _⟩ => show win0_2.index t (2 : Fin 3) * 16 + 1 * q.val = win0_3.index t (2 : Fin 3) * 16 + 1 * q.val; omega

/-- An index of the output array is in point `t`'s block iff each coordinate is in the block's range on its axis. -/
theorem mem_blk (t : Fin cfg0.N) (i : S8x4096x16.Idx) :
    i ∈ ((cfg0.win 3).blk t).view.set ↔ ∀ a : Fin 3, win0_3.index t a * S1x128x16.size a ≤ (i a).val ∧ (i a).val < win0_3.index t a * S1x128x16.size a + S1x128x16.size a := by
  show i ∈ ((View.whole main_v11).slice (win0_3.rect t)).set ↔ _
  rw [View.set_slice_whole, Rect.mem_set_unit]
  exact Iff.rfl

/-- Every index of the output array is in the block of the point of its batch and its row block `row / 128`. -/
theorem cover (i : S8x4096x16.Idx) :
    ∃ t : Fin cfg0.N, (cfg0.win 3).flush t = true ∧ i ∈ ((cfg0.win 3).blk t).view.set := by
  have hi0 : (i 0).val < 8 := (i 0).isLt
  have hi1 : (i 1).val < 4096 := (i 1).isLt
  have hi2 : (i 2).val < 16 := (i 2).isLt
  obtain ⟨t, ht⟩ := idx_onto ⟨(i 0).val, hi0⟩ ⟨(i 1).val / 128, by omega⟩
  have q0 : win0_3.index t (0 : Fin 3) = (i 0).val := congrFun ht 0
  have q1 : win0_3.index t (1 : Fin 3) = (i 1).val / 128 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 128 ≤ (i 1).val ∧ (i 1).val < win0_3.index t (1 : Fin 3) * 128 + 128; omega
  | ⟨2, _⟩ => show win0_3.index t (2 : Fin 3) * 16 ≤ (i 2).val ∧ (i 2).val < win0_3.index t (2 : Fin 3) * 16 + 16; omega

/-- THE OUTPUT ARRAY after the run is `scaledOut` of the arrays as the region finds them. -/
theorem final (c : Dev nD) :
    (dats m 0 c).arrAt 3 cfg0.N = scaledOut (V m c main_v6) (V m c main_v10) (V m c main_arg1) :=
  (dats m 0 c).arrAt_eq_of_cover 3 _ (fun t _ => flushed_eq m c t) cover

/-! ## The host lines before the region -/

/-- The lengthscale the host computes from its parameter `p`: `1e-5 + softplus p`, the softplus spelt as the program has
    it (`max p 0 + log1p (exp (-|p - 0|))`, behind a test of `p - 0` against itself that is never true of an extended
    real). Both programs compute it by the same operations; nothing here opens it. -/
def lengthscale (x2 : FVec Ideal S2 .f32) : FVec Ideal S2 .f32 :=
  addf (broadcastInDim S2 ![] bcast_S_S2 (constant S_ .f32 0x3727C5AC#32))
    (select (cmpf .une (subf x2 (broadcastInDim S2 ![] bcast_S_S2 (constant S_ .f32 0x00000000#32))) (subf x2 (broadcastInDim S2 ![] bcast_S_S2 (constant S_ .f32 0x00000000#32))))
      (addf x2 (broadcastInDim S2 ![] bcast_S_S2 (constant S_ .f32 0x00000000#32)))
      (addf (maximumf x2 (broadcastInDim S2 ![] bcast_S_S2 (constant S_ .f32 0x00000000#32)))
        (Host.log1p (Host.exp (Host.negf (Host.absf (subf x2 (broadcastInDim S2 ![] bcast_S_S2 (constant S_ .f32 0x00000000#32)))))))))

/-- The scaled grid the region finds: the flattened grid divided by the lengthscale broadcast along the rows. -/
theorem V_scaledGrid (c : Dev nD) :
    (V m c main_v6 : S4096x2.Idx → EReal)
      = Host.divf (shapeCast S4096x2 (m ((c : Thread nD τ).loc main_arg3)) shapeCasts_S64x64x2_S4096x2)
          (broadcastInDim S4096x2 ![0, 1] bcast_S1x2_S4096x2_0_1 (broadcastInDim S1x2 ![1] bcast_S2_S1x2_1 (lengthscale (m ((c : Thread nD τ).loc main_arg2))))) := by
  dsimp only [V, V0]
  simp only [hostOps0, hostOps0_1, List.flatten_cons, List.flatten_nil, List.append_nil, List.cons_append, List.nil_append]
  after_results
  rfl

/-- The scaled points the region finds: the points divided by the lengthscale broadcast along batches and points, then
    transposed to put the coordinate axis before the point axis. -/
theorem V_scaledPts (c : Dev nD) :
    (V m c main_v10 : S8x2x4096.Idx → EReal)
      = transpose S8x2x4096 [0, 2, 1] (Host.divf (m ((c : Thread nD τ).loc main_arg0))
          (broadcastInDim S8x4096x2 ![0, 1, 2] bcast_S1x1x2_S8x4096x2_0_1_2 (broadcastInDim S1x1x2 ![2] bcast_S2_S1x1x2_2 (lengthscale (m ((c : Thread nD τ).loc main_arg2))))))
          transposes_S8x4096x2_S8x2x4096_0_2_1 := by
  dsimp only [V, V0]
  simp only [hostOps0, hostOps0_1, List.flatten_cons, List.flatten_nil, List.append_nil, List.cons_append, List.nil_append]
  after_results
  rfl

/-- The scaled grid at `(r, d)`: the flattened grid's entry over the lengthscale of coordinate `d`. -/
theorem scaledGrid_apply (c : Dev nD) (r : Fin 4096) (d : Fin 2) :
    (V m c main_v6 : S4096x2.Idx → EReal) (ix2 r d)
      = Ideal.div (shapeCast S4096x2 (m ((c : Thread nD τ).loc main_arg3)) shapeCasts_S64x64x2_S4096x2 (ix2 r d))
          (lengthscale (m ((c : Thread nD τ).loc main_arg2)) (ix1 d)) := by
  rw [V_scaledGrid]
  show Ideal.div _ (broadcastInDim S4096x2 ![0, 1] bcast_S1x2_S4096x2_0_1 (broadcastInDim S1x2 ![1] bcast_S2_S1x2_1 (lengthscale (m ((c : Thread nD τ).loc main_arg2)))) (ix2 r d)) = _
  rw [broadcastInDim_apply _ bcast_S1x2_S4096x2_0_1 _ (ix2 r d) (ix2 (0 : Fin 1) d) (fun a => by
      match a with
      | ⟨0, _⟩ => rfl
      | ⟨1, _⟩ => show d.val = if (2 : Nat) = 1 then 0 else d.val; rw [if_neg (by decide)]),
    broadcastInDim_apply _ bcast_S2_S1x2_1 _ (ix2 (0 : Fin 1) d) (ix1 d) (fun a => by
      match a with
      | ⟨0, _⟩ => show d.val = if (2 : Nat) = 1 then 0 else d.val; rw [if_neg (by decide)])]

/-- The scaled transposed points at `(b, d, k)`: the point's coordinate `d` over its lengthscale. -/
theorem scaledPts_apply (c : Dev nD) (b : Fin 8) (d : Fin 2) (k : Fin 4096) :
    (V m c main_v10 : S8x2x4096.Idx → EReal) (ix3 b d k)
      = Ideal.div (m ((c : Thread nD τ).loc main_arg0) (ix3 b k d)) (lengthscale (m ((c : Thread nD τ).loc main_arg2)) (ix1 d)) := by
  rw [V_scaledPts, transpose_ix3_021_apply]
  show Ideal.div _ (broadcastInDim S8x4096x2 ![0, 1, 2] bcast_S1x1x2_S8x4096x2_0_1_2 (broadcastInDim S1x1x2 ![2] bcast_S2_S1x1x2_2 (lengthscale (m ((c : Thread nD τ).loc main_arg2)))) (ix3 b k d)) = _
  rw [broadcastInDim_apply _ bcast_S1x1x2_S8x4096x2_0_1_2 _ (ix3 b k d) (ix3 (0 : Fin 1) (0 : Fin 1) d) (fun a => by
      match a with
      | ⟨0, _⟩ => rfl
      | ⟨1, _⟩ => rfl
      | ⟨2, _⟩ => show d.val = if (2 : Nat) = 1 then 0 else d.val; rw [if_neg (by decide)]),
    broadcastInDim_apply _ bcast_S2_S1x1x2_2 _ (ix3 (0 : Fin 1) (0 : Fin 1) d) (ix1 d) (fun a => by
      match a with
      | ⟨0, _⟩ => show d.val = if (2 : Nat) = 1 then 0 else d.val; rw [if_neg (by decide)])]

/-! ## The lines after the region -/

/-- The second result: the output array folded to 8 × 64 × 64 × 16. -/
theorem tail_out (c : Dev nD) :
    Pipeline.afterTail₀ cfgs (dats m) 0 (V0 m) [hostOps1] c main_v12
      = shapeCast S8x64x64x16 (scaledOut (V m c main_v6) (V m c main_v10) (V m c main_arg1)) shapeCasts_S8x4096x16_S8x64x64x16 := by
  unfold Pipeline.afterTail₀
  show StableHlo.after hostOps1 _ (Proc.devRef .tc main_v12) = _
  after_results
  exact congrArg (fun A => shapeCast S8x64x64x16 A shapeCasts_S8x4096x16_S8x64x64x16)
    ((Pipeline.withArrays_arr spec0 launch0.win.arr_inj c (V0 m c) (fun w => (dats m 0 c).arrAt w (cfgs 0).N) 3).trans (final m c))

/-- The first result: the grid broadcast over the batches. -/
theorem tail_grid (c : Dev nD) :
    Pipeline.afterTail₀ cfgs (dats m) 0 (V0 m) [hostOps1] c main_v14
      = broadcastInDim S8x64x64x2 ![0, 1, 2, 3] bcast_S1x64x64x2_S8x64x64x2_0_1_2_3
          (broadcastInDim S1x64x64x2 ![1, 2, 3] bcast_S64x64x2_S1x64x64x2_1_2_3 (m ((c : Thread nD τ).loc main_arg3))) := by
  unfold Pipeline.afterTail₀
  show StableHlo.after hostOps1 _ (Proc.devRef .tc main_v14) = _
  after_results
  rw [Pipeline.withArrays_of_ne _ c (V0 m c) _ main_arg3 (by exact (by decide : ∀ w, Pipeline.arrRef spec0 w ≠ main_arg3))]
  exact congrArg (fun A => broadcastInDim S8x64x64x2 ![0, 1, 2, 3] bcast_S1x64x64x2_S8x64x64x2_0_1_2_3
    (broadcastInDim S1x64x64x2 ![1, 2, 3] bcast_S64x64x2_S1x64x64x2_1_2_3 A)) (V_main_arg3 m c)

/-! ## The run, read -/

/-- Every weakly fair execution of the idealized kernel's program terminates with the grid broadcast over the batches
    in its first result, the folded `scaledOut` of the scaled arrays in its second, and its arguments unchanged. -/
theorem run : θ_run defs (onTc (τ := τ) (main (F := Ideal))) ⟨m, fun _ => 0, ρ⟩ fun r => ∀ c : Dev nD,
      r.2.mem ((c.tc : Thread nD τ).loc main_v14)
        = broadcastInDim S8x64x64x2 ![0, 1, 2, 3] bcast_S1x64x64x2_S8x64x64x2_0_1_2_3
            (broadcastInDim S1x64x64x2 ![1, 2, 3] bcast_S64x64x2_S1x64x64x2_1_2_3 (m ((c.tc : Thread nD τ).loc main_arg3)))
      ∧ r.2.mem ((c.tc : Thread nD τ).loc main_v12)
        = shapeCast S8x64x64x16 (scaledOut (V m c main_v6) (V m c main_v10) (V m c main_arg1)) shapeCasts_S8x4096x16_S8x64x64x16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v14 (Pipeline.mem_restRefs_of main_v14 (by decide) (by decide))).trans (tail_grid m c),
      ((h c).2 main_v12 (Pipeline.mem_restRefs_of main_v12 (by decide) (by decide))).trans (tail_out m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.SetConv.KerValue

end
-- ==== Proof.RefAtIndex.lean ====
/-
  The reference's stages read at an index.

  The reference's product `einsum('bmn,bnd->bmd', weights, z)`, before it is folded to 64 × 64, is at `(b, r, e)` the sum
  over the points `k` of `weights[b, r, k] · z[b, k, e]`; the weight is the exponential of `-½` times the sum over the two
  coordinates `d` (from a zero initial value) of the square of `(grid[r, d] - x[b, k, d]) / l[d]`, where `grid` is the
  flattened grid and `l` the lengthscale, both stages of the reference themselves. Each stage is read by its generated
  read-at-an-index lemma, the broadcasts' composed index maps identified with indices built from coordinates.
-/
import proofs.«101110_j21105469292680_1_alg».proof.Proof.Gen.ReferenceIdeal.Read
import proofs.«101110_j21105469292680_1_alg».proof.Proof.Spec

noncomputable section

namespace Cert.SetConv.Ref

open Cert.ReferenceIdeal Cert.ReferenceIdeal.Gen Cert.ReferenceIdeal.Read
open Idealize.ShloMosaic Idealize.ShloMosaic.ValueIdx Cert.SetConv
open scoped BigOperators

/-- The product's left operand index at output `(b, r, e)` and point `k` is `(b, r, k)`. -/
theorem lidx_eq (b : Fin 8) (r : Fin 4096) (e : Fin 16) (k : Fin 4096) :
    lidx_main_v17 (ix3 b r e) k = ix3 b r k :=
  funext fun a => Fin.ext (by match a with | ⟨0, _⟩ => rfl | ⟨1, _⟩ => rfl | ⟨2, _⟩ => rfl)

/-- Its right operand index is `(b, k, e)`. -/
theorem ridx_eq (b : Fin 8) (r : Fin 4096) (e : Fin 16) (k : Fin 4096) :
    ridx_main_v17 (ix3 b r e) k = ix3 b k e :=
  funext fun a => Fin.ext (by match a with | ⟨0, _⟩ => rfl | ⟨1, _⟩ => rfl | ⟨2, _⟩ => rfl)

/-- The coordinate sum at `(b, r, k)` runs over `(b, r, k, d)`. -/
theorem sumidx_eq (b : Fin 8) (r k : Fin 4096) (d : Fin 2) :
    idx_main_v13 (ix3 b r k) d = ix4 b r k d :=
  funext fun a => Fin.ext (by match a with | ⟨0, _⟩ => rfl | ⟨1, _⟩ => rfl | ⟨2, _⟩ => rfl | ⟨3, _⟩ => rfl)

/-- The grid broadcast over batches and points reads the flattened grid at `(r, d)`. -/
theorem grididx_eq (b : Fin 8) (r k : Fin 4096) (d : Fin 2) :
    idx_main_v4 (idx_main_v6 (ix4 b r k d)) = ix2 r d :=
  funext fun a => Fin.ext (by match a with | ⟨0, _⟩ => rfl | ⟨1, _⟩ => rfl)

/-- The points broadcast over grid rows read `x` at `(b, k, d)`. -/
theorem ptsidx_eq (b : Fin 8) (r k : Fin 4096) (d : Fin 2) :
    idx_main_v5 (idx_main_v7 (ix4 b r k d)) = ix3 b k d :=
  funext fun a => Fin.ext (by match a with | ⟨0, _⟩ => rfl | ⟨1, _⟩ => rfl | ⟨2, _⟩ => rfl)

/-- The lengthscale broadcast over everything reads `l` at `d`. -/
theorem lenidx_eq (b : Fin 8) (r k : Fin 4096) (d : Fin 2) :
    idx_main_v9 (idx_main_v10 (ix4 b r k d)) = ix1 d :=
  funext fun a => Fin.ext (by match a with | ⟨0, _⟩ => rfl)

/-- The scaled difference at `(b, r, k, d)`. -/
theorem diff_apply (x0 : SPts.Idx → EReal) (x2 : SLen.Idx → EReal) (x3 : S64x64x2.Idx → EReal)
    (b : Fin 8) (r k : Fin 4096) (d : Fin 2) :
    val_main_v11 (F := Ideal) x0 x2 x3 (ix4 b r k d)
      = Ideal.div (val_main_v3 (F := Ideal) x3 (ix2 r d) - x0 (ix3 b k d)) (val_main_v2 (F := Ideal) x2 (ix1 d)) := by
  rw [val_main_v11_apply, val_main_v8_apply, val_main_v6_apply, val_main_v4_apply, grididx_eq,
    val_main_v7_apply, val_main_v5_apply, ptsidx_eq, val_main_v10_apply, val_main_v9_apply, lenidx_eq]
  rfl

/-- The reference's weight at `(b, r, k)` is `refWeight` of the flattened grid, the points and the lengthscale. -/
theorem weight_apply (x0 : SPts.Idx → EReal) (x2 : SLen.Idx → EReal) (x3 : S64x64x2.Idx → EReal)
    (b : Fin 8) (r k : Fin 4096) :
    val_main_v16 (F := Ideal) x0 x2 x3 (ix3 b r k)
      = refWeight (val_main_v3 (F := Ideal) x3) x0 (val_main_v2 (F := Ideal) x2) b r k := by
  rw [val_main_v16_apply, val_main_v15_apply, val_main_v14_apply, val_main_cst_1_apply, val_main_v13_apply,
    val_main_cst_0_apply]
  unfold refWeight
  simp only [sumidx_eq, val_main_v12_apply, diff_apply]
  rfl

/-- The reference's product, before the fold to 64 × 64, is `refOut`. -/
theorem out_eq (x0 : SPts.Idx → EReal) (x1 : SFeat.Idx → EReal) (x2 : SLen.Idx → EReal) (x3 : S64x64x2.Idx → EReal) :
    val_main_v17 (F := Ideal) x0 x1 x2 x3
      = refOut (val_main_v3 (F := Ideal) x3) x0 (val_main_v2 (F := Ideal) x2) x1 := by
  funext i
  obtain ⟨b, r, e, rfl⟩ : ∃ (b : Fin 8) (r : Fin 4096) (e : Fin 16), i = ix3 b r e := ⟨i 0, i 1, i 2, eq_ix3 i⟩
  rw [val_main_v17_apply]
  unfold refOut
  refine Finset.sum_congr rfl fun k _ => ?_
  rw [lidx_eq, ridx_eq, weight_apply]

end Cert.SetConv.Ref

end
-- ==== Proof.FiniteInputs.lean ====
/-
  The precondition, read back: the points and the grid are real numbers.

  The precondition says that the conjunction, over the four inputs, of "every entry's absolute value is below +∞" is
  true. A conjunction of one-bit words is 1 only if each is; a reduction by `and` over all axes is 1 only if every
  entry is; and an extended real whose absolute value `max x (-x)` is below `⊤` is neither infinity, so it is a real.
-/
import proofs.«101110_j21105469292680_1_alg».proof.Pre_finite_inputs
import Idealize.ShloMosaic.Lib.ReduceAll
import Idealize.ShloMosaic.Lib.ValueIdx
import Idealize.ShloMosaic.PureOps.Ideal.Laws

noncomputable section

namespace Cert.SetConv

open Idealize.ShloMosaic Idealize.ShloMosaic.ValueIdx

/-- An extended real whose absolute value compares below the pattern of +∞ is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ a : ℝ, x = (a : EReal) := by
  have htop : Ideal.ofBits .f32 0x7F800000#32 = ⊤ := by simp [Ideal.ofBits, Ideal.ieee]
  rw [Ideal.cmpf_def, Ideal.ofBits_def, htop, Ideal.hostAbsf_def, Ideal.absf_def] at h
  induction x using EReal.rec with
  | bot => simp [Ideal.cmp] at h
  | top => simp [Ideal.cmp] at h
  | coe a => exact ⟨a, rfl⟩

open Cert.Pre_finite_inputs

variable [Cert.Pre_finite_inputs.Facts]

instance : Subsingleton Cert.Pre_finite_inputs.S_.Idx := ⟨fun a b => funext fun d => d.elim0⟩

/-- Under the precondition every entry of the points and of the grid is a real number. -/
theorem finite_of_pre (x0 : FVec Ideal S8x4096x2 .f32) (x1 : FVec Ideal S8x4096x16 .f32) (x2 : FVec Ideal S2 .f32)
    (x3 : FVec Ideal S64x64x2 .f32) (h : fn (F := Ideal) x0 x1 x2 x3 = fun _ => 1#1) :
    (∀ i, ∃ a : ℝ, x0 i = (a : EReal)) ∧ (∀ i, ∃ a : ℝ, x3 i = (a : EReal)) := by
  have h0 := congrFun h ix0
  dsimp only [fn, fn_part1] at h0
  obtain ⟨h123, hD⟩ := IntOp.andi_eq_one.1 h0
  obtain ⟨h12, hC⟩ := IntOp.andi_eq_one.1 h123
  obtain ⟨hA, hB⟩ := IntOp.andi_eq_one.1 h12
  exact ⟨fun i => real_of_abs_lt_inf _ (Host.reduce_andi_all _ _ _ _ _ hA i),
    fun i => real_of_abs_lt_inf _ (Host.reduce_andi_all _ _ _ _ _ hD i)⟩

end Cert.SetConv

end
-- ==== Proof.Bridge.lean ====
/-
  The two programs compute one function.

  The kernel's second result is the fold to 8 × 64 × 64 × 16 of `scaledOut` of the scaled grid, the scaled transposed
  points and the features; the reference's is the same fold of its product, which is `refOut` of the flattened grid, the
  points, the lengthscale and the features. The flattened grid and the lengthscale are the SAME host terms of the
  arguments in both programs, the scaled arrays are the quotients by that lengthscale entry by entry, and under the
  precondition the grid and the points are real numbers, so `scaledOut_eq_refOut` joins the two.
-/
import proofs.«101110_j21105469292680_1_alg».proof.Proof.KernelValue
import proofs.«101110_j21105469292680_1_alg».proof.Proof.RefAtIndex
import proofs.«101110_j21105469292680_1_alg».proof.Proof.FiniteInputs
import proofs.«101110_j21105469292680_1_alg».proof.Proof.Gen.Pre_finite_inputs
import proofs.«101110_j21105469292680_1_alg».proof.Defs

noncomputable section

namespace Cert.SetConv

open Idealize.ShloMosaic Idealize.ShloMosaic.TcCoe Idealize.ShloMosaic.ValueIdx Idealize.SL.Sem
open Cert.KernelIdeal Cert.KernelIdeal.Gen

/-- The kernel program's lengthscale term is the reference's stage: the same operations of the parameter. -/
theorem lengthscale_eq (x2 : SLen.Idx → EReal) :
    KerValue.lengthscale x2 = Cert.ReferenceIdeal.Read.val_main_v2 (F := Ideal) x2 := rfl

/-- The kernel's folded output is the reference's folded product. -/
theorem result_eq (m : (ℓ : Loc nD τ sig) → Buf (Elt Ideal) ℓ) (hpre : Cert.Pre_KernelIdeal m) (c : Dev nD) :
    shapeCast S8x64x64x16 (scaledOut (V m c main_v6) (V m c main_v10) (V m c main_arg1)) shapeCasts_S8x4096x16_S8x64x64x16
      = Cert.ReferenceIdeal.Read.val_main_v18 (F := Ideal) (m ((c.tc : Thread nD τ).loc main_arg0)) (m ((c.tc : Thread nD τ).loc main_arg1))
          (m ((c.tc : Thread nD τ).loc main_arg2)) (m ((c.tc : Thread nD τ).loc main_arg3)) := by
  obtain ⟨hx, hg⟩ := finite_of_pre _ _ _ _ (hpre c)
  have e : scaledOut (V m c main_v6) (V m c main_v10) (V m c main_arg1)
      = Cert.ReferenceIdeal.Read.val_main_v17 (F := Ideal) (m ((c.tc : Thread nD τ).loc main_arg0)) (m ((c.tc : Thread nD τ).loc main_arg1))
          (m ((c.tc : Thread nD τ).loc main_arg2)) (m ((c.tc : Thread nD τ).loc main_arg3)) := by
    rw [Ref.out_eq, V_main_arg1]
    exact scaledOut_eq_refOut _ _ _ _ _ _
      (fun i => by rw [Cert.ReferenceIdeal.Read.val_main_v3_apply]; exact hg _) hx
      (fun r d => KerValue.scaledGrid_apply m c r d) (fun b d k => KerValue.scaledPts_apply m c b d k)
  rw [e]
  rfl

end Cert.SetConv

end
-- ==== Proof.lean ====
/-
  A set-convolution onto a grid: the Pallas kernel against its jnp reference, over the extended reals.

  Both programs take points `x` (8 × 4096 × 2), features `z` (8 × 4096 × 16), a lengthscale parameter `p` (2) and a grid
  (64 × 64 × 2), and return the grid broadcast over the 8 batches and, for each batch `b`, grid point `r` and feature `e`,
      out[b, r, e] = Σ_k exp (-½ · Σ_d ((grid[r, d] - x[b, k, d]) / l[d])²) · z[b, k, e],     l = 1e-5 + softplus p.
  The reference computes exactly that: subtract, divide by `l`, square, sum the two coordinates, exponentiate, contract
  with `z`. The kernel's host code divides the grid and the points by `l` FIRST and transposes the points; the pallas_call
  then, on an 8 × 32 grid of (batch, block of 128 grid rows), subtracts the scaled coordinates, squares, adds,
  exponentiates a 128 × 4096 tile of weights and multiplies it with the batch's 4096 × 16 features on the matrix unit.

  The one law between the two arrangements is `(g / l - x / l)² = ((g - x) / l)²`. It holds on the extended reals for real
  `g`, `x` and EVERY `l`: off zero the quotient is a product with the real `l⁻¹`, and at `l = 0` every quotient is an
  infinity, whose square is `⊤` on both sides (Proof/SquareLaw.lean). So the lengthscale is never opened — both programs
  compute it by the same host operations — and the precondition is used only for the grid and the points being real
  (Proof/FiniteInputs.lean). The sums over the points are the same sum: a `tpu.matmul` into a zero accumulator and the
  host's `dot_general` are both the plain contraction, the changes of format to bf16 the identity.

  The pieces: Proof/Spec.lean states both arrangements as whole-array functions and joins them; Proof/RefAtIndex.lean reads
  the reference's run stage by stage to `refOut`; Proof/KernelPayload.lean reads the kernel body's value at an index;
  Proof/KernelBlocks.lean and Proof/KernelValue.lean carry the blocks the 256 grid points write back to the whole output array,
  read the host lines before and after the region, and restate the kernel's run with both results named; Proof/Bridge.lean
  puts the two sides together. The three frames are the programs' runs with the results dropped; the idealization
  rewrote nothing, so `preserves` is trivial.
-/
import proofs.«101110_j21105469292680_1_alg».proof.Defs
import proofs.«101110_j21105469292680_1_alg».proof.Proof.Gen.Kernel
import proofs.«101110_j21105469292680_1_alg».proof.Proof.Gen.Kernel.Skeleton
import proofs.«101110_j21105469292680_1_alg».proof.Proof.Gen.Kernel.Launch
import proofs.«101110_j21105469292680_1_alg».proof.Proof.Gen.Kernel.Points
import proofs.«101110_j21105469292680_1_alg».proof.Proof.Gen.Kernel.Frame
import proofs.«101110_j21105469292680_1_alg».proof.Proof.Gen.KernelIdeal
import proofs.«101110_j21105469292680_1_alg».proof.Proof.Gen.KernelIdeal.Skeleton
import proofs.«101110_j21105469292680_1_alg».proof.Proof.Gen.KernelIdeal.Launch
import proofs.«101110_j21105469292680_1_alg».proof.Proof.Gen.KernelIdeal.Points
import proofs.«101110_j21105469292680_1_alg».proof.Proof.Gen.KernelIdeal.Frame
import proofs.«101110_j21105469292680_1_alg».proof.Proof.Gen.ReferenceIdeal
import proofs.«101110_j21105469292680_1_alg».proof.Proof.Gen.Pre_finite_inputs
import proofs.«101110_j21105469292680_1_alg».proof.Proof.Gen.ReferenceIdeal.Run
import proofs.«101110_j21105469292680_1_alg».proof.Proof.Gen.ReferenceIdeal.Read
import proofs.«101110_j21105469292680_1_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a host program: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments both idealized programs end with the grid broadcast over the batches in
    the first result and, in the second, the folded weighted sums: the kernel's by its run read back, the reference's by
    its run, the two terms one function of the arguments under the precondition (`Cert.SetConv.result_eq`). -/
theorem algebraic : Cert.algebraic_KernelIdeal_ReferenceIdeal := by
  intro m ρ m' ρ' hpre hagree
  refine ⟨_, _, Cert.SetConv.KerValue.run m ρ, ?_⟩
  refine (θ_run Cert.ReferenceIdeal.defs _ _).mono (fun _ h c => ⟨(h c).1.trans ?_,
      (h c).2.1.trans ((Cert.ReferenceIdeal.Read.val_main_v18_eq _ _ _ _).trans ?_), (h c).2.2⟩)
    (Cert.ReferenceIdeal.Value.run (F := Ideal) m' ρ')
  · rw [(hagree c).2.2.2]
  · rw [(hagree c).1, (hagree c).2.1, (hagree c).2.2.1, (hagree c).2.2.2]
    exact (Cert.SetConv.result_eq m hpre c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
